-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S1024x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  main_v28

def fn {F : FTy → Type} [FloatOps F] (main_arg0 : FVec F S8192x1024 .f32) (main_arg1 : FVec F S1024x1024 .f32) (main_arg2 : FVec F S1x1024 .f32) (main_arg3 : FVec F S1024x2048 .f32) (main_arg4 : FVec F S1x2048 .f32) (main_arg5 : FVec F S1024x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1024x2048, .f32⟩
  | .hbm, ⟨4, _⟩ => ⟨S1x2048, .f32⟩
  | .hbm, ⟨5, _⟩ => ⟨S1024x2048, .f32⟩
  | .hbm, ⟨6, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x2048, .f32⟩
  | .local _ .vmem, ⟨5, _⟩ => ⟨S1x2048, .f32⟩
  | .local _ .vmem, ⟨6, _⟩ => ⟨S1024x2048, .f32⟩
  | .local _ .vmem, ⟨7, _⟩ => ⟨S512x2048, .f32⟩
  | .local _ .vmem, ⟨8, _⟩ => ⟨S512x2048, .f32⟩
  | .local _ .vmem, ⟨9, _⟩ => ⟨S1024x1024, .bf16⟩
  | .local _ .vmem, ⟨10, _⟩ => ⟨S1024x2048, .bf16⟩
  | .local _ .vmem, ⟨11, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1x2048_S1x2048_0_0 : ∀ a, (![0, 0] : Fin 2 → Nat) a + S1x2048.size a ≤ S1x2048.size a
  h_S1x2048 : 0 < S1x2048.numel
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .f32 = 32 ∨ (Rect.block (s := S1024x2048) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .f32 = 32 ∨ (Rect.block (s := S8192x2048) S512x2048.size (cc0_transform_6 i) (hinb0_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8256x1024 : Shape := ⟨2, ![8256, 1024]⟩
abbrev S8256x2048 : Shape := ⟨2, ![8256, 2048]⟩
abbrev S8192x2048 : Shape := ⟨2, ![8192, 2048]⟩
abbrev S96x1024 : Shape := ⟨2, ![96, 1024]⟩
abbrev S96x2048 : Shape := ⟨2, ![96, 2048]⟩

abbrev nBuf : Space → Nat
  | .hbm => 26
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S1024x2048, .f32⟩
  | .hbm, ⟨4, _⟩ => ⟨S1x2048, .f32⟩
  | .hbm, ⟨5, _⟩ => ⟨S1024x2048, .f32⟩
  | .hbm, ⟨6, _⟩ => ⟨S_, .i32⟩
  | .hbm, ⟨7, _⟩ => ⟨S_, .f32⟩
  | .hbm, ⟨8, _⟩ => ⟨S8256x1024, .f32⟩
  | .hbm, ⟨9, _⟩ => ⟨S_, .i32⟩
  | .hbm, ⟨10, _⟩ => ⟨S_, .f32⟩
  | .hbm, ⟨11, _⟩ => ⟨S1024x1024, .f32⟩
  | .hbm, ⟨12, _⟩ => ⟨S_, .i32⟩
  | .hbm, ⟨13, _⟩ => ⟨S_, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S1024x2048, .f32⟩
  | .hbm, ⟨18, _⟩ => ⟨S_, .i32⟩
  | .hbm, ⟨19, _⟩ => ⟨S_, .f32⟩
  | .hbm, ⟨20, _⟩ => ⟨S1x2048, .f32⟩
  | .hbm, ⟨21, _⟩ => ⟨S_, .i32⟩
  | .hbm, ⟨22, _⟩ => ⟨S_, .f32⟩
  | .hbm, ⟨23, _⟩ => ⟨S1024x2048, .f32⟩
  | .hbm, ⟨24, _⟩ => ⟨S8256x2048, .f32⟩
  | .hbm, ⟨25, _⟩ => ⟨S8192x2048, .f32⟩
  | .local _ .vmem, ⟨0, _⟩ => ⟨S96x1024, .f32⟩
  | .local _ .vmem, ⟨1, _⟩ => ⟨S96x1024, .f32⟩
  | .local _ .vmem, ⟨2, _⟩ => ⟨S1024x1024, .f32⟩
  | .local _ .vmem, ⟨3, _⟩ => ⟨S1x1024, .f32⟩
  | .local _ .vmem, ⟨4, _⟩ => ⟨S1024x2048, .f32⟩
  | .local _ .vmem, ⟨5, _⟩ => ⟨S1x2048, .f32⟩
  | .local _ .vmem, ⟨6, _⟩ => ⟨S1024x2048, .f32⟩
  | .local _ .vmem, ⟨7, _⟩ => ⟨S96x2048, .f32⟩
  | .local _ .vmem, ⟨8, _⟩ => ⟨S96x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_call0_v0 : Ref sig .tc := ⟨.hbm, 7, rfl⟩
abbrev main_call0_v0 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v1 : Ref sig .tc := ⟨.hbm, 11, rfl⟩
abbrev main_call0_c_1 : Ref sig .tc := ⟨.hbm, 12, rfl⟩
abbrev main_call0_call2_v0 : Ref sig .tc := ⟨.hbm, 13, rfl⟩
abbrev main_call0_v2 : Ref sig .tc := ⟨.hbm, 14, rfl⟩
abbrev main_call0_c_2 : Ref sig .tc := ⟨.hbm, 15, rfl⟩
abbrev main_call0_call3_v0 : Ref sig .tc := ⟨.hbm, 16, rfl⟩
abbrev main_call0_v3 : Ref sig .tc := ⟨.hbm, 17, rfl⟩
abbrev main_call0_c_3 : Ref sig .tc := ⟨.hbm, 18, rfl⟩
abbrev main_call0_call4_v0 : Ref sig .tc := ⟨.hbm, 19, rfl⟩
abbrev main_call0_v4 : Ref sig .tc := ⟨.hbm, 20, rfl⟩
abbrev main_call0_c_4 : Ref sig .tc := ⟨.hbm, 21, rfl⟩
abbrev main_call0_call5_v0 : Ref sig .tc := ⟨.hbm, 22, rfl⟩
abbrev main_call0_v5 : Ref sig .tc := ⟨.hbm, 23, rfl⟩
abbrev main_call0_v6 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S8192x1024_S8256x1024_0640_000 : S8192x1024.Pads (![0, 0] : Fin 2 → Nat) ![64, 0] ![0, 0] S8256x1024
  h_S_ : 0 < S_.numel
  pads_S1024x1024_S1024x1024_000_000 : S1024x1024.Pads (![0, 0] : Fin 2 → Nat) ![0, 0] ![0, 0] S1024x1024
  pads_S1x1024_S1x1024_000_000 : S1x1024.Pads (![0, 0] : Fin 2 → Nat) ![0, 0] ![0, 0] S1x1024
  pads_S1024x2048_S1024x2048_000_000 : S1024x2048.Pads (![0, 0] : Fin 2 → Nat) ![0, 0] ![0, 0] S1024x2048
  pads_S1x2048_S1x2048_000_000 : S1x2048.Pads (![0, 0] : Fin 2 → Nat) ![0, 0] ![0, 0] S1x2048
  slices_S8256x2048_S8192x2048_0_0 : S8256x2048.Slices ![0, 0] S8192x2048
  inb_S96x1024_S96x1024_0_0 : ∀ a, (![0, 0] : Fin 2 → Nat) a + S96x1024.size a ≤ S96x1024.size a
  h_S96x1024 : 0 < S96x1024.numel
  shapeCasts_S96x1024_S96x1024 : S96x1024.ShapeCasts S96x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S96x1024 : S1x1024.Broadcasts S96x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S96x2048 : S1x2048.Broadcasts S96x2048
  inb_S96x2048_S96x2048_0_0 : ∀ a, (![0, 0] : Fin 2 → Nat) a + S96x2048.size a ≤ S96x2048.size a
  h_S96x2048 : 0 < S96x2048.numel
  dot_S96x1024_S1024x1024_S96x1024_1_0_0_1_n_n_wf : DotDims.WF S96x1024 S1024x1024 S96x1024 [1] [0] [0] [1] [] []
  dot_S96x1024_S1024x2048_S96x2048_1_0_0_1_n_n_wf : DotDims.WF S96x1024 S1024x2048 S96x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S96x1024.size a ≤ S8256x1024.size a
  hwx0_0 : ∀ i : grid0.Coords, EltTy.bits .f32 = 32 ∨ (Rect.block (s := S8256x1024) S96x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .f32 = 32 ∨ (Rect.block (s := S1024x2048) S1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S96x2048.size a ≤ S8256x2048.size a
  hwx0_6 : ∀ i : grid0.Coords, EltTy.bits .f32 = 32 ∨ (Rect.block (s := S8256x2048) S96x2048.size (cc0_transform_6 i) (hinb0_6 i)).WholeWords (EltTy.packing .f32)

variable [Facts₀]

def dot_S96x1024_S1024x1024_S96x1024_1_0_0_1_n_n : DotDims S96x1024 S1024x1024 S96x1024 where
  lhsContracting := [1]
  rhsContracting := [0]
  lhsNonContracting := [0]
  rhsNonContracting := [1]
  lhsBatch := []
  rhsBatch := []
  wf := dot_S96x1024_S1024x1024_S96x1024_1_0_0_1_n_n_wf
def dot_S96x1024_S1024x2048_S96x2048_1_0_0_1_n_n : DotDims S96x1024 S1024x2048 S96x2048 where
  lhsContracting := [1]
  rhsContracting := [0]
  lhsNonContracting := [0]
  rhsNonContracting := [1]
  lhsBatch := []
  rhsBatch := []
  wf := dot_S96x1024_S1024x2048_S96x2048_1_0_0_1_n_n_wf

abbrev win0_0 : Pipeline.Window sig grid0 :=
  Pipeline.Window.ofSpec (Memref.whole main_call0_v0) S96x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S96x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.KernelPieces.lean ====
/-
  What one grid point of the block kernel leaves behind, read as values (at any float instance).

  The kernel keeps three scratch matrices between grid points: at the first point of each core's sequence (column
  coordinate 0) it copies the three weight matrices into them (a change of float format, nothing else), and at every
  point it computes the block's output from the input rows, the two biases and the three scratch matrices.
  So a point of the first kind leaves in the scratch the converted weights and in the output buffer the block
  function of the converted weights; a point of the second kind leaves the scratch as it found it and in the
  output buffer the block function of what the scratch held.
-/
import proofs.«100547_g2000702539081698_pallasbulk_401_4_alg».proof.Proof.Gen.KernelIdeal.Frame
import proofs.«100547_g2000702539081698_pallasbulk_401_4_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S512x1024 .f32) (h2 : a2.IsWhole) (a3 : Memref sig .tc .vmem S1024x1024 .f32) (h3 : a3.IsWhole)
  (a4 : Memref sig .tc .vmem S1x1024 .f32) (h4 : a4.IsWhole) (a5 : Memref sig .tc .vmem S1024x2048 .f32) (h5 : a5.IsWhole)
  (a6 : Memref sig .tc .vmem S1x2048 .f32) (h6 : a6.IsWhole) (a7 : Memref sig .tc .vmem S1024x2048 .f32) (h7 : a7.IsWhole)
  (a8 : Memref sig .tc .vmem S512x2048 .f32) (h8 : a8.IsWhole) (a9 : Memref sig .tc .vmem S1024x1024 .bf16) (h9 : a9.IsWhole)
  (a10 : Memref sig .tc .vmem S1024x2048 .bf16) (h10 : a10.IsWhole) (a11 : Memref sig .tc .vmem S1024x2048 .bf16) (h11 : a11.IsWhole)
  (x0 : Vec F S512x1024 .f32) (x1 : Vec F S1024x1024 .f32) (x2 : Vec F S1x1024 .f32) (x3 : Vec F S1024x2048 .f32)
  (x4 : Vec F S1x2048 .f32) (x5 : Vec F S1024x2048 .f32)

/-- A point that copies the weights leaves the first scratch at the converted first-layer weights. -/
theorem scratch0_copy (hc : cond0_0 i) :
    sout0_A_0 c i a2 h2 a3 h3 a4 h4 a5 h5 a6 h6 a7 h7 a8 h8 a9 h9 a10 h10 a11 h11 hc x0 x1 x2 x3 x4 x5 = k0_pay1 x1 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h3.read_unread, View.ld_unit_zero (S := S1024x1024) hz]

/-- … the second scratch at the converted second-layer weights. -/
theorem scratch1_copy (hc : cond0_0 i) :
    sout0_A_1 c i a2 h2 a3 h3 a4 h4 a5 h5 a6 h6 a7 h7 a8 h8 a9 h9 a10 h10 a11 h11 hc x0 x1 x2 x3 x4 x5 = k0_pay2 x3 := by
  unfold sout0_A_1
  rw [View.read_writes_eq_canon _ _ _ (scover0_A_1 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h5.read_unread, View.ld_unit_zero (S := S1024x2048) hz]

/-- … and the third scratch at the converted shortcut weights. -/
theorem scratch2_copy (hc : cond0_0 i) :
    sout0_A_2 c i a2 h2 a3 h3 a4 h4 a5 h5 a6 h6 a7 h7 a8 h8 a9 h9 a10 h10 a11 h11 hc x0 x1 x2 x3 x4 x5 = k0_pay3 x5 := by
  unfold sout0_A_2
  rw [View.read_writes_eq_canon _ _ _ (scover0_A_2 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h7.read_unread, View.ld_unit_zero (S := S1024x2048) hz]

/-- A point that copies the weights leaves in the output buffer the block function of the input rows, the biases and
    the converted weights it has just stored. -/
theorem out_copy (hc : cond0_0 i) :
    out0_A_6 c i a2 h2 a3 h3 a4 h4 a5 h5 a6 h6 a7 h7 a8 h8 a9 h9 a10 h10 a11 h11 hc x0 x1 x2 x3 x4 x5 = k0_pay4 x0 (k0_pay1 x1) x2 (k0_pay3 x5) (k0_pay2 x3) x4 := by
  unfold out0_A_6
  rw [View.read_writes_eq_canon _ _ _ (cover0_A_6 c i a2 h2 a3 h3 a4 h4 a5 h5 a6 h6 a7 h7 a8 h8 a9 h9 a10 h10 a11 h11 hc x0 x1 x2 x3 x4 x5)]
  unfold kernelRun0_A
  dsimp only
  sl_unfold_words
  rw [View.canon_unit_zero hz]
  simp only [View.readAt_eq_ld, h2.read_unread, h3.read_unread, h4.read_unread, h5.read_unread, h6.read_unread, h7.read_unread,
    View.ld_unit_zero (S := S512x1024) hz, View.ld_unit_zero (S := S1x1024) hz, View.ld_unit_zero (S := S1x2048) hz,
    View.ld_unit_zero (S := S1024x1024) hz, View.ld_unit_zero (S := S1024x2048) hz,
    View.readCov_unit_zero (S := S1024x1024) _ hz, View.readCov_unit_zero (S := S1024x2048) _ hz]

/-- A point that does not copy leaves in the output buffer the block function of the input rows, the biases and what
    the three scratch matrices held. -/
theorem out_keep (hc : ¬cond0_0 i) (xs0 : Vec F S1024x1024 .bf16) (xs1 : Vec F S1024x2048 .bf16) (xs2 : Vec F S1024x2048 .bf16) :
    out0_B_6 c i a2 h2 a3 h3 a4 h4 a5 h5 a6 h6 a7 h7 a8 h8 a9 h9 a10 h10 a11 h11 hc x0 x1 x2 x3 x4 x5 xs0 xs1 xs2 = k0_pay4 x0 xs0 x2 xs2 xs1 x4 := by
  unfold out0_B_6
  rw [View.read_writes_eq_canon _ _ _ (cover0_B_6 c i a2 h2 a3 h3 a4 h4 a5 h5 a6 h6 a7 h7 a8 h8 a9 h9 a10 h10 a11 h11 hc x0 x1 x2 x3 x4 x5 xs0 xs1 xs2)]
  unfold kernelRun0_B
  dsimp only
  sl_unfold_words
  rw [View.canon_unit_zero hz]
  simp only [View.readAt_eq_ld, h2.read_unread, h4.read_unread, h6.read_unread, h9.read_unread, h10.read_unread, h11.read_unread,
    View.ld_unit_zero (S := S512x1024) hz, View.ld_unit_zero (S := S1x1024) hz, View.ld_unit_zero (S := S1x2048) hz,
    View.ld_unit_zero (S := S1024x1024) hz, View.ld_unit_zero (S := S1024x2048) hz]

end Cert.KernelIdeal.Pieces

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Spec.lean ====
/-
  The residual fully connected block, one output entry at a time, over the extended reals.

  For a row xr of the input (1024 entries), weights w0 [1024, 1024], w1 [1024, 2048], ws [1024, 2048] and biases
  b0 [1, 1024], b1 [1, 2048]:
    hidden k   = max (Σ_l max (xr l) 0 · w0 (l, k) + b0 k) 0            (the first layer after both rectifiers)
    out q      = Σ_k xr k · ws (k, q)  +  Σ_k hidden k · w1 (k, q)  +  b1 q .
  The two programs group the last line differently: one adds the bias to the sum of the two products,
  (shortcut + residual) + b1, the other adds it to the residual product first, shortcut + (residual + b1).
  Addition of extended reals is associative at every value, the infinities included, so the two groupings are equal
  with no finiteness assumption.
-/
import Idealize.ShloMosaic.PureOps.Ideal
import Idealize.ShloMosaic.Lib.ValueIdx

noncomputable section

open scoped BigOperators
open Idealize.ShloMosaic Idealize.ShloMosaic.ValueIdx

namespace Cert.ResBlock

/-- The hidden activation k of a row: the rectified first layer applied to the rectified row. -/
def hidden (xr : Fin 1024 → EReal) (w0 : (⟨2, ![1024, 1024]⟩ : Shape).Idx → EReal)
    (b0 : (⟨2, ![1, 1024]⟩ : Shape).Idx → EReal) (k : Fin 1024) : EReal :=
  max ((∑ l : Fin 1024, max (xr l) 0 * w0 (ix2 l k)) + b0 (ix2 (0 : Fin 1) k)) 0

/-- Output entry q of a row, the bias added last: (shortcut + residual) + b1. -/
def biasLast (xr : Fin 1024 → EReal) (w0 : (⟨2, ![1024, 1024]⟩ : Shape).Idx → EReal)
    (b0 : (⟨2, ![1, 1024]⟩ : Shape).Idx → EReal) (w1 : (⟨2, ![1024, 2048]⟩ : Shape).Idx → EReal)
    (b1 : (⟨2, ![1, 2048]⟩ : Shape).Idx → EReal) (ws : (⟨2, ![1024, 2048]⟩ : Shape).Idx → EReal) (q : Fin 2048) : EReal :=
  ((∑ k : Fin 1024, xr k * ws (ix2 k q)) + ∑ k : Fin 1024, hidden xr w0 b0 k * w1 (ix2 k q)) + b1 (ix2 (0 : Fin 1) q)

/-- Output entry q of a row, the bias added to the residual product first: shortcut + (residual + b1). -/
def biasInner (xr : Fin 1024 → EReal) (w0 : (⟨2, ![1024, 1024]⟩ : Shape).Idx → EReal)
    (b0 : (⟨2, ![1, 1024]⟩ : Shape).Idx → EReal) (w1 : (⟨2, ![1024, 2048]⟩ : Shape).Idx → EReal)
    (b1 : (⟨2, ![1, 2048]⟩ : Shape).Idx → EReal) (ws : (⟨2, ![1024, 2048]⟩ : Shape).Idx → EReal) (q : Fin 2048) : EReal :=
  (∑ k : Fin 1024, xr k * ws (ix2 k q)) + ((∑ k : Fin 1024, hidden xr w0 b0 k * w1 (ix2 k q)) + b1 (ix2 (0 : Fin 1) q))

/-- The two groupings are one extended real. -/
theorem biasInner_eq_biasLast (xr : Fin 1024 → EReal) (w0 : (⟨2, ![1024, 1024]⟩ : Shape).Idx → EReal)
    (b0 : (⟨2, ![1, 1024]⟩ : Shape).Idx → EReal) (w1 : (⟨2, ![1024, 2048]⟩ : Shape).Idx → EReal)
    (b1 : (⟨2, ![1, 2048]⟩ : Shape).Idx → EReal) (ws : (⟨2, ![1024, 2048]⟩ : Shape).Idx → EReal) (q : Fin 2048) :
    biasInner xr w0 b0 w1 b1 ws q = biasLast xr w0 b0 w1 b1 ws q :=
  (add_assoc _ _ _).symm

/-- Row r of a matrix with 1024 columns. -/
abbrev rowOf {R : Nat} (x : (⟨2, ![R, 1024]⟩ : Shape).Idx → EReal) (r : Fin R) : Fin 1024 → EReal := fun l => x (ix2 r l)

/-- The whole result of the block on an input of 8192 rows: entry (r, q) is the block's output q on row r. -/
def result (x : (⟨2, ![8192, 1024]⟩ : Shape).Idx → EReal) (w0 : (⟨2, ![1024, 1024]⟩ : Shape).Idx → EReal)
    (b0 : (⟨2, ![1, 1024]⟩ : Shape).Idx → EReal) (w1 : (⟨2, ![1024, 2048]⟩ : Shape).Idx → EReal)
    (b1 : (⟨2, ![1, 2048]⟩ : Shape).Idx → EReal) (ws : (⟨2, ![1024, 2048]⟩ : Shape).Idx → EReal) :
    (⟨2, ![8192, 2048]⟩ : Shape).Idx → EReal :=
  fun i => biasLast (rowOf x (i 0 : Fin 8192)) w0 b0 w1 b1 ws (i 1 : Fin 2048)

end Cert.ResBlock

end
-- ==== Proof.KernelPay.lean ====
/-
  The block kernel's arithmetic at one entry, at the ideal values. The changes of float format are the identity there, so
  a converted weight matrix is the matrix itself, and for a block of 512 input rows, entry (p, q) of what the kernel
  stores is the residual block's output q on row p, the bias added last.
-/
import proofs.«100547_g2000702539081698_pallasbulk_401_4_alg».proof.Proof.Gen.KernelIdeal.Skeleton
import proofs.«100547_g2000702539081698_pallasbulk_401_4_alg».proof.Proof.LibPlainMatmul
import proofs.«100547_g2000702539081698_pallasbulk_401_4_alg».proof.Proof.Spec
import Idealize.ShloMosaic.Lib.Pipeline.Value
import Idealize.ShloMosaic.Lib.ValueIdx

noncomputable section

open scoped BigOperators
open Idealize.ShloMosaic Idealize.ShloMosaic.ValueIdx

namespace Cert.KernelIdeal.Pay

open Cert.KernelIdeal Cert.KernelIdeal.Gen Cert.Lib

/-- The sixteen-bit zero pattern denotes the extended real 0. -/
theorem bf16_zero : Ideal.ofBits .bf16 0x0000#16 = 0 := by simp [Ideal.ofBits, Ideal.ieee]

/-- Converting the first-layer weights to the narrower format changes nothing at the ideal values. -/
theorem convert0 (x : Vec Ideal S1024x1024 .f32) : k0_pay1 (F := Ideal) x = x := by
  unfold k0_pay1; simp only [shapeCast_self]; rfl
theorem convert1 (x : Vec Ideal S1024x2048 .f32) : k0_pay2 (F := Ideal) x = x := by
  unfold k0_pay2; simp only [shapeCast_self]; rfl
theorem convert2 (x : Vec Ideal S1024x2048 .f32) : k0_pay3 (F := Ideal) x = x := by
  unfold k0_pay3; simp only [shapeCast_self]; rfl

/-- Entry (p, q) of the stored block: row p of the input block through both layers and the shortcut. The scratch
    matrices s0, s1, s2 stand for the first-layer, second-layer and shortcut weights. -/
theorem pay_apply (x0 : Vec Ideal S512x1024 .f32) (s0 : Vec Ideal S1024x1024 .bf16) (b0 : Vec Ideal S1x1024 .f32)
    (s2 : Vec Ideal S1024x2048 .bf16) (s1 : Vec Ideal S1024x2048 .bf16) (b1 : Vec Ideal S1x2048 .f32) (p : Fin 512) (q : Fin 2048) :
    k0_pay4 (F := Ideal) x0 s0 b0 s2 s1 b1 (ix2 p q) = ResBlock.biasLast (fun l => x0 (ix2 p l)) s0 b0 s1 b1 s2 q := by
  unfold k0_pay4 ResBlock.biasLast ResBlock.hidden
  simp only [addf_apply, matmul,
    PlainMatmul.apply dot_S512x1024_S1024x2048_S512x2048_1_0_0_1_n_n rfl rfl rfl rfl rfl rfl,
    PlainMatmul.apply dot_S512x1024_S1024x1024_S512x1024_1_0_0_1_n_n rfl rfl rfl rfl rfl rfl,
    maximumf_apply, truncf_apply, broadcast_apply, PlainMatmul.rowSpread_apply, Ideal.ofBits_def, Ideal.ofBits_zero_f32, bf16_zero]

end Cert.KernelIdeal.Pay

end
-- ==== Proof.KernelValue.lean ====
/-
  What the block kernel's program returns, at the ideal values.

  The grid has 16 points, two runs of 8; point t reads rows 512 t … 512 t + 511 of the input and writes the same rows
  of the result; the weights and biases are read whole at every point. At the first point of each run the kernel copies
  the weights into its three scratch matrices, so after EVERY point the scratch matrices hold the converted weights (an
  induction on the point: a copying point stores them, any other point leaves them). Hence every point writes the
  residual block's outputs on its 512 rows, and since the 16 row blocks tile the result, the result array ends at the
  block's output on every row of the input.
-/
import proofs.«100547_g2000702539081698_pallasbulk_401_4_alg».proof.Proof.KernelPieces
import proofs.«100547_g2000702539081698_pallasbulk_401_4_alg».proof.Proof.KernelPay

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable (m : (ℓ : Loc nD τ sig) → Buf (Elt Ideal) ℓ) (ρ : Dev nD → PrngReg)

/-! ## The argument arrays, as the kernel finds them -/

/-- The input rows; first-layer weights and bias; second-layer weights and bias; shortcut weights. -/
abbrev xa (c : Dev nD) : Vec Ideal S8192x1024 .f32 := V m c main_arg0
abbrev w0a (c : Dev nD) : Vec Ideal S1024x1024 .f32 := V m c main_arg1
abbrev b0a (c : Dev nD) : Vec Ideal S1x1024 .f32 := V m c main_arg2
abbrev w1a (c : Dev nD) : Vec Ideal S1024x2048 .f32 := V m c main_arg3
abbrev b1a (c : Dev nD) : Vec Ideal S1x2048 .f32 := V m c main_arg4
abbrev wsa (c : Dev nD) : Vec Ideal S1024x2048 .f32 := V m c main_arg5

/-- The printed index maps over the 16 points: the input's and the output's row-block index is the point's number
    (8 i + j at grid coordinates (i, j)), every other block index is zero. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The weights' and biases' blocks are the whole arrays at every point -/

theorem blk1 (c : Dev nD) (t : Fin cfg0.N) : (iblk m c 1 t : Vec Ideal S1024x1024 .f32) = w0a m c := by
  have e := idx_facts t
  funext y
  unfold iblk
  rw [View.read_apply]
  show V m c main_arg1 _ = V m c main_arg1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk2 (c : Dev nD) (t : Fin cfg0.N) : (iblk m c 2 t : Vec Ideal S1x1024 .f32) = b0a m c := by
  have e := idx_facts t
  funext y
  unfold iblk
  rw [View.read_apply]
  show V m c main_arg2 _ = V m c main_arg2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem blk3 (c : Dev nD) (t : Fin cfg0.N) : (iblk m c 3 t : Vec Ideal S1024x2048 .f32) = w1a m c := by
  have e := idx_facts t
  funext y
  unfold iblk
  rw [View.read_apply]
  show V m c main_arg3 _ = V m c main_arg3 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 2048 + 1 * (y 1).val = (y 1).val; omega

theorem blk4 (c : Dev nD) (t : Fin cfg0.N) : (iblk m c 4 t : Vec Ideal S1x2048 .f32) = b1a m c := by
  have e := idx_facts t
  funext y
  unfold iblk
  rw [View.read_apply]
  show V m c main_arg4 _ = V m c main_arg4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem blk5 (c : Dev nD) (t : Fin cfg0.N) : (iblk m c 5 t : Vec Ideal S1024x2048 .f32) = wsa m c := by
  have e := idx_facts t
  funext y
  unfold iblk
  rw [View.read_apply]
  show V m c main_arg5 _ = V m c main_arg5 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 2048 + 1 * (y 1).val = (y 1).val; omega

/-! ## After every point the scratch matrices hold the converted weights -/

theorem scratch_inv (c : Dev nD) : ∀ (n : ℕ) (h : n < cfg0.N),
    (outsAt0 m c n h).2.1 = k0_pay1 (w0a m c) ∧ (outsAt0 m c n h).2.2.1 = k0_pay2 (w1a m c)
      ∧ (outsAt0 m c n h).2.2.2 = k0_pay3 (wsa m c)
  | 0, h => by
    rw [outsAt0_A m c ⟨0, h⟩ rfl]
    dsimp only
    refine ⟨(Pieces.scratch0_copy (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _).trans (congrArg k0_pay1 (blk1 m c ⟨0, h⟩)),
      (Pieces.scratch1_copy (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _).trans (congrArg k0_pay2 (blk3 m c ⟨0, h⟩)),
      (Pieces.scratch2_copy (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0 (Memref.isWhole_whole _) scM0_1 (Memref.isWhole_whole _) scM0_2 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) _).trans (congrArg k0_pay3 (blk5 m c ⟨0, h⟩))⟩
  | n + 1, h => by
    by_cases h0 : (n + 1) % 8 = 0
    · rw [outsAt0_A m c ⟨n + 1, h⟩ h0]
      dsimp only
      refine ⟨(Pieces.scratch0_copy (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans (congrArg k0_pay1 (blk1 m c ⟨n + 1, h⟩)),
        (Pieces.scratch1_copy (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans (congrArg k0_pay2 (blk3 m c ⟨n + 1, h⟩)),
        (Pieces.scratch2_copy (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) scM0_1 (Memref.isWhole_whole _) scM0_2 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _).trans (congrArg k0_pay3 (blk5 m c ⟨n + 1, h⟩))⟩
    · rw [outsAt0_B m c ⟨n + 1, h⟩ h0]
      dsimp only
      unfold sout0_B_0 sout0_B_1 sout0_B_2
      exact scratch_inv c n (Nat.lt_of_succ_lt h)

/-! ## So every point leaves the block function of its rows and the weights in the output buffer -/

theorem out_at (c : Dev nD) (t : Fin cfg0.N) :
    (outsAt0 m c t.val t.isLt).1
      = k0_pay4 (iblk m c 0 t) (k0_pay1 (w0a m c)) (b0a m c) (k0_pay3 (wsa m c)) (k0_pay2 (w1a m c)) (b1a m c) := by
  by_cases h0 : t.val % 8 = 0
  · rw [outsAt0_A m c t h0]
    dsimp only
    refine (Pieces.out_copy (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) _).trans ?_
    rw [blk1, blk2, blk3, blk4, blk5]
  · rw [outsAt0_B m c t h0]
    dsimp only
    refine (Pieces.out_keep (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) _ _ _ _).trans ?_
    have hs := scratch_inv m c (t.val - 1) (Nat.lt_of_le_of_lt (Nat.sub_le _ _) t.isLt)
    rw [hs.1, hs.2.1, hs.2.2, blk2, blk4]

/-! ## The result array -/

/-- The residual block's output on every row of the input. -/
def result (c : Dev nD) : Vec Ideal S8192x2048 .f32 :=
  ResBlock.result (xa m c) (w0a m c) (b0a m c) (w1a m c) (b1a m c) (wsa m c)

/-- What point t writes back is rows 512 t … 512 t + 511 of that result. -/
theorem flushed_eq (c : Dev nD) (t : Fin cfg0.N) :
    (dats m 0 c).flushed 6 t = ((cfg0.win 6).blk t).view.read (Elt Ideal) (result m c) := by
  rw [Value.flushed6, out_at]
  have e := idx_facts t
  funext j
  obtain ⟨p, q, rfl⟩ : ∃ (p : Fin 512) (q : Fin 2048), j = ix2 p q := ⟨j 0, j 1, eq_ix2 j⟩
  show k0_pay4 (iblk m c 0 t) (k0_pay1 (w0a m c)) (b0a m c) (k0_pay3 (wsa m c)) (k0_pay2 (w1a m c)) (b1a m c) (ix2 p q)
      = result m c (((cfg0.win 6).blk t).view.emb (ix2 p q))
  refine (Pay.pay_apply (iblk m c 0 t) (k0_pay1 (w0a m c)) (b0a m c) (k0_pay3 (wsa m c)) (k0_pay2 (w1a m c)) (b1a m c) p q).trans ?_
  rw [Pay.convert0, Pay.convert1, Pay.convert2]
  unfold result ResBlock.result
  dsimp only
  have hq : ((((cfg0.win 6).blk t).view.emb (ix2 p q)) 1 : Fin 2048) = q :=
    Fin.ext (by show win0_6.index t (1 : Fin 2) * 2048 + 1 * q.val = q.val; omega)
  have hr : (fun l : Fin 1024 => (iblk m c 0 t : Vec Ideal S512x1024 .f32) (ix2 p l))
      = ResBlock.rowOf (xa m c) ((((cfg0.win 6).blk t).view.emb (ix2 p q)) 0 : Fin 8192) := by
    funext l
    unfold iblk
    rw [View.read_apply]
    show V m c main_arg0 _ = V m c main_arg0 _
    refine congrArg _ (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 1024 + 1 * l.val = l.val; omega
  rw [hr, hq]

/-- An index of the result is in point t's block iff each coordinate is in the block's range on its axis. -/
theorem mem_blk (t : Fin cfg0.N) (i : S8192x2048.Idx) :
    i ∈ ((cfg0.win 6).blk t).view.set ↔ ∀ a : Fin 2, win0_6.index t a * S512x2048.size a ≤ (i a).val
      ∧ (i a).val < win0_6.index t a * S512x2048.size a + S512x2048.size a := by
  show i ∈ ((View.whole main_v0).slice (win0_6.rect t)).set ↔ _
  rw [View.set_slice_whole, Rect.mem_set_unit]
  exact Iff.rfl

/-- Row r of the result lies in the block of point r / 512: the 16 row blocks tile the result. -/
theorem cover (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  have hN : cfg0.N = 16 := N_0
  have e := idx_facts ⟨(i 0).val / 512, by rw [hN]; omega⟩
  refine ⟨⟨(i 0).val / 512, by rw [hN]; omega⟩, flush0_6 _, ?_⟩
  rw [mem_blk]
  intro a
  match a with
  | ⟨0, _⟩ =>
    show win0_6.index ⟨(i 0).val / 512, _⟩ (0 : Fin 2) * 512 ≤ (i 0).val
      ∧ (i 0).val < win0_6.index ⟨(i 0).val / 512, _⟩ (0 : Fin 2) * 512 + 512
    rw [e.2.2.1]; dsimp only; omega
  | ⟨1, _⟩ =>
    show win0_6.index ⟨(i 0).val / 512, _⟩ (1 : Fin 2) * 2048 ≤ (i 1).val
      ∧ (i 1).val < win0_6.index ⟨(i 0).val / 512, _⟩ (1 : Fin 2) * 2048 + 2048
    rw [e.2.2.2.1]; omega

/-- So the result array ends at the residual block's output on every row. -/
theorem final (c : Dev nD) : (dats m 0 c).arrAt 6 cfg0.N = result m c :=
  (dats m 0 c).arrAt_eq_of_cover 6 (result m c) (fun t _ => flushed_eq m c t) cover

/-- The run, read: the result array at the block's output on the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KValue

end
-- ==== Proof.RefPay.lean ====
/-
  The reference kernel's block function at one entry, at the ideal values: for a block of 96 input rows, entry (p, q) of
  what it stores is the residual block's output q on row p, with the bias added to the residual product first.
-/
import proofs.«100547_g2000702539081698_pallasbulk_401_4_alg».proof.Proof.Gen.ReferenceIdeal.Frame
import proofs.«100547_g2000702539081698_pallasbulk_401_4_alg».proof.Proof.LibPlainMatmul
import proofs.«100547_g2000702539081698_pallasbulk_401_4_alg».proof.Proof.Spec
import Idealize.ShloMosaic.Lib.Pipeline.Value
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.Lib

/-- Entry (p, q) of the stored block: row p of the input block through both layers and the shortcut. -/
theorem pay_apply (x0 : Vec Ideal S96x1024 .f32) (x1 : Vec Ideal S1024x1024 .f32) (x2 : Vec Ideal S1x1024 .f32)
    (x3 : Vec Ideal S1024x2048 .f32) (x4 : Vec Ideal S1x2048 .f32) (x5 : Vec Ideal S1024x2048 .f32) (p : Fin 96) (q : Fin 2048) :
    k0_pay1 (F := Ideal) x0 x1 x2 x3 x4 x5 (ix2 p q) = ResBlock.biasInner (fun l => x0 (ix2 p l)) x1 x2 x3 x4 x5 q := by
  unfold k0_pay1 ResBlock.biasInner ResBlock.hidden
  simp only [shapeCast_self, addf_apply, matmul,
    PlainMatmul.apply dot_S96x1024_S1024x2048_S96x2048_1_0_0_1_n_n rfl rfl rfl rfl rfl rfl,
    PlainMatmul.apply dot_S96x1024_S1024x1024_S96x1024_1_0_0_1_n_n rfl rfl rfl rfl rfl rfl,
    maximumf_apply, broadcast_apply, PlainMatmul.rowSpread_apply, Ideal.ofBits_def, Ideal.ofBits_zero_f32]

end Cert.ReferenceIdeal.RefValue

end
-- ==== Proof.RefValue.lean ====
/-
  What the reference program returns, at the ideal values.

  The reference pads the input with 64 zero rows to 8256 rows (86 blocks of 96), leaves the weights and biases as they
  are (paddings of width zero), runs its kernel once per block of 96 rows, and cuts the first 8192 rows of the kernel's
  8256-row result. Row r of the kernel's result depends on row r of the padded input only, and rows below 8192 of the
  padded input are the input's rows; so entry (r, q) of what is returned is the residual block's output q on row r of
  the input, the padding rows never read.
-/
import proofs.«100547_g2000702539081698_pallasbulk_401_4_alg».proof.Proof.RefPay
import Idealize.ShloMosaic.Lib.KernelVsHost
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen

variable (m : (ℓ : Loc nD τ sig) → Buf (Elt Ideal) ℓ) (ρ : Dev nD → PrngReg)

theorem hz : (![0, 0] : Fin 2 → Nat) = fun _ => 0 := funext fun a => by fin_cases a <;> rfl

/-! ## The arrays the kernel's windows read, as the kernel finds them -/

/-- The padded input, 8256 rows. -/
abbrev xpad (c : Dev nD) : Vec Ideal S8256x1024 .f32 := V m c main_call0_v0
/-- First-layer weights, first-layer bias, second-layer weights, second-layer bias, shortcut weights. -/
abbrev w0a (c : Dev nD) : Vec Ideal S1024x1024 .f32 := V m c main_call0_v1
abbrev b0a (c : Dev nD) : Vec Ideal S1x1024 .f32 := V m c main_call0_v2
abbrev w1a (c : Dev nD) : Vec Ideal S1024x2048 .f32 := V m c main_call0_v3
abbrev b1a (c : Dev nD) : Vec Ideal S1x2048 .f32 := V m c main_call0_v4
abbrev wsa (c : Dev nD) : Vec Ideal S1024x2048 .f32 := V m c main_call0_v5

/-- The kernel's whole result on the padded input: entry (r, q) is the block's output q on padded row r. -/
def padded (c : Dev nD) : Vec Ideal S8256x2048 .f32 := fun i =>
  ResBlock.biasInner (fun l => xpad m c (ix2 (i 0 : Fin 8256) l)) (w0a m c) (b0a m c) (w1a m c) (b1a m c) (wsa m c) (i 1 : Fin 2048)

/-- The printed index maps over the 86 points: the input's and the output's row-block index is the point's number,
    every other block index is zero. -/
theorem idx_facts : ∀ t : Fin cfg0.N, win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## The weights' and biases' blocks are the whole arrays at every point -/

theorem blk1 (c : Dev nD) (t : Fin cfg0.N) : (iblk m c 1 t : Vec Ideal S1024x1024 .f32) = w0a m c := by
  have e := idx_facts t
  funext y
  unfold iblk
  rw [View.read_apply]
  show V m c main_call0_v1 _ = V m c main_call0_v1 y
  refine congrArg _ (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

theorem blk2 (c : Dev nD) (t : Fin cfg0.N) : (iblk m c 2 t : Vec Ideal S1x1024 .f32) = b0a m c := by
  have e := idx_facts t
  funext y
  unfold iblk
  rw [View.read_apply]
  show V m c main_call0_v2 _ = V m c main_call0_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem blk3 (c : Dev nD) (t : Fin cfg0.N) : (iblk m c 3 t : Vec Ideal S1024x2048 .f32) = w1a m c := by
  have e := idx_facts t
  funext y
  unfold iblk
  rw [View.read_apply]
  show V m c main_call0_v3 _ = V m c main_call0_v3 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 2048 + 1 * (y 1).val = (y 1).val; omega

theorem blk4 (c : Dev nD) (t : Fin cfg0.N) : (iblk m c 4 t : Vec Ideal S1x2048 .f32) = b1a m c := by
  have e := idx_facts t
  funext y
  unfold iblk
  rw [View.read_apply]
  show V m c main_call0_v4 _ = V m c main_call0_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem blk5 (c : Dev nD) (t : Fin cfg0.N) : (iblk m c 5 t : Vec Ideal S1024x2048 .f32) = wsa m c := by
  have e := idx_facts t
  funext y
  unfold iblk
  rw [View.read_apply]
  show V m c main_call0_v5 _ = V m c main_call0_v5 y
  refine congrArg _ (funext fun a => Fin.ext ?_)
  match a with
  | ⟨0, _⟩ => show win0_5.index t (0 : Fin 2) * 1024 + 1 * (y 0).val = (y 0).val; omega
  | ⟨1, _⟩ => show win0_5.index t (1 : Fin 2) * 2048 + 1 * (y 1).val = (y 1).val; omega

/-! ## The kernel's result array -/

/-- What point t writes back is rows 96 t … 96 t + 95 of the result on the padded input. -/
theorem flushed_eq (c : Dev nD) (t : Fin cfg0.N) :
    (dats m 0 c).flushed 6 t = ((cfg0.win 6).blk t).view.read (Elt Ideal) (padded m c) := by
  show (cfg0.win 6).cut (grid0.coords t) ((dats m 0 c).after 6 t) = _
  rw [after0_6]
  unfold out0_6
  rw [View.canon_unit_zero hz]
  simp only [View.ld_unit_zero (S := S96x1024) hz, View.ld_unit_zero (S := S1024x1024) hz, View.ld_unit_zero (S := S1x1024) hz,
    View.ld_unit_zero (S := S1024x2048) hz, View.ld_unit_zero (S := S1x2048) hz]
  rw [blk1, blk2, blk3, blk4, blk5]
  have e := idx_facts t
  funext j
  obtain ⟨p, q, rfl⟩ : ∃ (p : Fin 96) (q : Fin 2048), j = ix2 p q := ⟨j 0, j 1, eq_ix2 j⟩
  show k0_pay1 (iblk m c 0 t) (w0a m c) (b0a m c) (w1a m c) (b1a m c) (wsa m c) (ix2 p q)
      = padded m c (((cfg0.win 6).blk t).view.emb (ix2 p q))
  refine (pay_apply (iblk m c 0 t) (w0a m c) (b0a m c) (w1a m c) (b1a m c) (wsa m c) p q).trans ?_
  unfold padded
  dsimp only
  have hq : ((((cfg0.win 6).blk t).view.emb (ix2 p q)) 1 : Fin 2048) = q :=
    Fin.ext (by show win0_6.index t (1 : Fin 2) * 2048 + 1 * q.val = q.val; omega)
  have hr : (fun l : Fin 1024 => (iblk m c 0 t : Vec Ideal S96x1024 .f32) (ix2 p l))
      = fun l : Fin 1024 => xpad m c (ix2 ((((cfg0.win 6).blk t).view.emb (ix2 p q)) 0 : Fin 8256) l) := by
    funext l
    unfold iblk
    rw [View.read_apply]
    show V m c main_call0_v0 _ = V m c main_call0_v0 _
    refine congrArg _ (funext fun a => Fin.ext ?_)
    match a with
    | ⟨0, _⟩ => show win0_0.index t (0 : Fin 2) * 96 + 1 * p.val = win0_6.index t (0 : Fin 2) * 96 + 1 * p.val; omega
    | ⟨1, _⟩ => show win0_0.index t (1 : Fin 2) * 1024 + 1 * l.val = l.val; omega
  rw [hr, hq]

/-- An index of the kernel's result is in point t's block iff each coordinate is in the block's range on its axis. -/
theorem mem_blk (t : Fin cfg0.N) (i : S8256x2048.Idx) :
    i ∈ ((cfg0.win 6).blk t).view.set ↔ ∀ a : Fin 2, win0_6.index t a * S96x2048.size a ≤ (i a).val
      ∧ (i a).val < win0_6.index t a * S96x2048.size a + S96x2048.size a := by
  show i ∈ ((View.whole main_call0_v6).slice (win0_6.rect t)).set ↔ _
  rw [View.set_slice_whole, Rect.mem_set_unit]
  exact Iff.rfl

/-- Row r of the kernel's result lies in the block of point r / 96: the 86 row blocks tile its 8256 rows. -/
theorem cover (i : S8256x2048.Idx) :
    ∃ t : Fin cfg0.N, (cfg0.win 6).flush t = true ∧ i ∈ ((cfg0.win 6).blk t).view.set := by
  have hi0 : (i 0).val < 8256 := (i 0).isLt
  have hi1 : (i 1).val < 2048 := (i 1).isLt
  have hN : cfg0.N = 86 := N_0
  have e := idx_facts ⟨(i 0).val / 96, by rw [hN]; omega⟩
  refine ⟨⟨(i 0).val / 96, by rw [hN]; omega⟩, flush0_6 _, ?_⟩
  rw [mem_blk]
  intro a
  match a with
  | ⟨0, _⟩ =>
    show win0_6.index ⟨(i 0).val / 96, _⟩ (0 : Fin 2) * 96 ≤ (i 0).val
      ∧ (i 0).val < win0_6.index ⟨(i 0).val / 96, _⟩ (0 : Fin 2) * 96 + 96
    rw [e.2.2.1]; dsimp only; omega
  | ⟨1, _⟩ =>
    show win0_6.index ⟨(i 0).val / 96, _⟩ (1 : Fin 2) * 2048 ≤ (i 1).val
      ∧ (i 1).val < win0_6.index ⟨(i 0).val / 96, _⟩ (1 : Fin 2) * 2048 + 2048
    rw [e.2.2.2.1]; omega

/-- So the kernel's result array ends at the residual block's output on every padded row. -/
theorem final (c : Dev nD) : (dats m 0 c).arrAt 6 cfg0.N = padded m c :=
  (dats m 0 c).arrAt_eq_of_cover 6 (padded m c) (fun t _ => flushed_eq m c t) cover

/-! ## The host operations around the kernel -/

/-- The padded input is the input with 64 rows of the padding value appended, -/
theorem xpad_eq (c : Dev nD) : xpad m c = pad S8256x1024 ![0, 0] ![64, 0] ![0, 0] (m ((c : Thread nD τ).loc main_arg0))
      (sitofp (F := Ideal) .f32 (constantI S_ 32 0#32)) pads_S8192x1024_S8256x1024_0640_000 h_S_ := by
  show StableHlo.after hostOps0 (fun b => m (c, b)) (Proc.devRef .tc main_call0_v0) = _
  after_results
  rfl

/-- so its rows below 8192 are the input's rows. -/
theorem xpad_row (c : Dev nD) (r : Fin 8192) (hr : r.val < 8256) (l : Fin 1024) :
    xpad m c (ix2 (⟨r.val, hr⟩ : Fin 8256) l) = m ((c : Thread nD τ).loc main_arg0) (ix2 r l) := by
  rw [xpad_eq]
  refine pad_apply_of_inside _ _ _ _ _ _ _ (ix2 (⟨r.val, hr⟩ : Fin 8256) l) (ix2 r l) fun a => ?_
  match a with
  | ⟨0, _⟩ => show r.val = 0 + r.val * (0 + 1); omega
  | ⟨1, _⟩ => show l.val = 0 + l.val * (0 + 1); omega

/-- The weights and biases pass through paddings of width zero: they reach the kernel as they are. -/
theorem w0a_eq (c : Dev nD) : w0a m c = m ((c : Thread nD τ).loc main_arg1) := by
  have e : w0a m c = pad S1024x1024 ![0, 0] ![0, 0] ![0, 0] (m ((c : Thread nD τ).loc main_arg1))
      (sitofp (F := Ideal) .f32 (constantI S_ 32 0#32)) pads_S1024x1024_S1024x1024_000_000 h_S_ := by
    show StableHlo.after hostOps0 (fun b => m (c, b)) (Proc.devRef .tc main_call0_v1) = _
    after_results
    rfl
  rw [e]
  funext j
  refine pad_apply_of_inside _ _ _ _ _ _ _ j j fun a => ?_
  match a with
  | ⟨0, _⟩ => show (j 0).val = 0 + (j 0).val * (0 + 1); omega
  | ⟨1, _⟩ => show (j 1).val = 0 + (j 1).val * (0 + 1); omega

theorem b0a_eq (c : Dev nD) : b0a m c = m ((c : Thread nD τ).loc main_arg2) := by
  have e : b0a m c = pad S1x1024 ![0, 0] ![0, 0] ![0, 0] (m ((c : Thread nD τ).loc main_arg2))
      (sitofp (F := Ideal) .f32 (constantI S_ 32 0#32)) pads_S1x1024_S1x1024_000_000 h_S_ := by
    show StableHlo.after hostOps0 (fun b => m (c, b)) (Proc.devRef .tc main_call0_v2) = _
    after_results
    rfl
  rw [e]
  funext j
  refine pad_apply_of_inside _ _ _ _ _ _ _ j j fun a => ?_
  match a with
  | ⟨0, _⟩ => show (j 0).val = 0 + (j 0).val * (0 + 1); omega
  | ⟨1, _⟩ => show (j 1).val = 0 + (j 1).val * (0 + 1); omega

theorem w1a_eq (c : Dev nD) : w1a m c = m ((c : Thread nD τ).loc main_arg3) := by
  have e : w1a m c = pad S1024x2048 ![0, 0] ![0, 0] ![0, 0] (m ((c : Thread nD τ).loc main_arg3))
      (sitofp (F := Ideal) .f32 (constantI S_ 32 0#32)) pads_S1024x2048_S1024x2048_000_000 h_S_ := by
    show StableHlo.after hostOps0 (fun b => m (c, b)) (Proc.devRef .tc main_call0_v3) = _
    after_results
    rfl
  rw [e]
  funext j
  refine pad_apply_of_inside _ _ _ _ _ _ _ j j fun a => ?_
  match a with
  | ⟨0, _⟩ => show (j 0).val = 0 + (j 0).val * (0 + 1); omega
  | ⟨1, _⟩ => show (j 1).val = 0 + (j 1).val * (0 + 1); omega

theorem b1a_eq (c : Dev nD) : b1a m c = m ((c : Thread nD τ).loc main_arg4) := by
  have e : b1a m c = pad S1x2048 ![0, 0] ![0, 0] ![0, 0] (m ((c : Thread nD τ).loc main_arg4))
      (sitofp (F := Ideal) .f32 (constantI S_ 32 0#32)) pads_S1x2048_S1x2048_000_000 h_S_ := by
    show StableHlo.after hostOps0 (fun b => m (c, b)) (Proc.devRef .tc main_call0_v4) = _
    after_results
    rfl
  rw [e]
  funext j
  refine pad_apply_of_inside _ _ _ _ _ _ _ j j fun a => ?_
  match a with
  | ⟨0, _⟩ => show (j 0).val = 0 + (j 0).val * (0 + 1); omega
  | ⟨1, _⟩ => show (j 1).val = 0 + (j 1).val * (0 + 1); omega

theorem wsa_eq (c : Dev nD) : wsa m c = m ((c : Thread nD τ).loc main_arg5) := by
  have e : wsa m c = pad S1024x2048 ![0, 0] ![0, 0] ![0, 0] (m ((c : Thread nD τ).loc main_arg5))
      (sitofp (F := Ideal) .f32 (constantI S_ 32 0#32)) pads_S1024x2048_S1024x2048_000_000 h_S_ := by
    show StableHlo.after hostOps0 (fun b => m (c, b)) (Proc.devRef .tc main_call0_v5) = _
    after_results
    rfl
  rw [e]
  funext j
  refine pad_apply_of_inside _ _ _ _ _ _ _ j j fun a => ?_
  match a with
  | ⟨0, _⟩ => show (j 0).val = 0 + (j 0).val * (0 + 1); omega
  | ⟨1, _⟩ => show (j 1).val = 0 + (j 1).val * (0 + 1); omega

/-- After the kernel the program cuts rows 0 … 8191 of the kernel's result: that is what it returns. -/
theorem tail_eq (c : Dev nD) :
    Pipeline.afterTail₀ cfgs (dats m) 0 (V0 m) [hostOps1] c main_v0
      = extractStridedSlice S8192x2048 ![0, 0] (padded m c) slices_S8256x2048_S8192x2048_0_0 := by
  unfold Pipeline.afterTail₀
  show StableHlo.after hostOps1 _ (Proc.devRef .tc main_v0) = _
  after_results
  refine congrArg (fun x : Vec Ideal S8256x2048 .f32 => extractStridedSlice S8192x2048 ![0, 0] x slices_S8256x2048_S8192x2048_0_0) ?_
  exact (Pipeline.withArrays_arr spec0 launch0.win.arr_inj c (V0 m c) (fun w => (dats m 0 c).arrAt w cfg0.N) 6).trans (final m c)

/-- The rows cut are rows of the input, never of the padding: what is returned is the residual block's output on
    every row of the input, whichever way the bias is grouped. -/
theorem returned_eq (c : Dev nD) :
    extractStridedSlice S8192x2048 ![0, 0] (padded m c) slices_S8256x2048_S8192x2048_0_0
      = ResBlock.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  funext i
  obtain ⟨r, q, rfl⟩ : ∃ (r : Fin 8192) (q : Fin 2048), i = ix2 r q := ⟨i 0, i 1, eq_ix2 i⟩
  have hr : r.val < 8256 := by have := r.isLt; omega
  rw [extractStridedSlice_apply _ _ _ (ix2 r q) (ix2 (⟨r.val, hr⟩ : Fin 8256) q) (fun a => by
    match a with
    | ⟨0, _⟩ => show r.val = 0 + r.val; omega
    | ⟨1, _⟩ => show q.val = 0 + q.val; omega)]
  unfold padded ResBlock.result ResBlock.rowOf
  rw [ResBlock.biasInner_eq_biasLast, w0a_eq, b0a_eq, w1a_eq, b1a_eq, wsa_eq]
  have hx : (fun l : Fin 1024 => xpad m c (ix2 (⟨r.val, hr⟩ : Fin 8256) l))
      = fun l : Fin 1024 => m ((c : Thread nD τ).loc main_arg0) (ix2 r l) := funext fun l => xpad_row m c r hr l
  exact congrArg (fun xr => ResBlock.biasLast xr _ _ _ _ _ q) hx

/-- The run, read: the result at the residual block's output on the argument arrays, the arguments unchanged. -/
theorem run : θ_run defs (onTc (τ := τ) (main (F := Ideal))) ⟨m, fun _ => 0, ρ⟩ fun r => ∀ c : Dev nD,
      r.2.mem ((c : Thread nD τ).loc main_v0)
        = ResBlock.result (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v0 (Pipeline.mem_restRefs_of main_v0 (by decide) (by decide))).trans ((tail_eq m c).trans (returned_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ReferenceIdeal.RefValue

end
-- ==== Proof.lean ====
/-
  The residual fully connected block: a kernel that copies its weights once per core into scratch matrices and streams
  blocks of 512 rows, against a reference that pads the input to 86 blocks of 96 rows, runs its own kernel and cuts the
  result back.

  At the ideal values both programs return, at entry (r, q) of the result,
      Σ_k x (r, k) · ws (k, q)  +  Σ_k hidden_r k · w1 (k, q)  +  b1 q,
      hidden_r k = max (Σ_l max (x (r, l)) 0 · w0 (l, k) + b0 k) 0,
  the changes of float format being the identity there and a matrix product into the zero matrix the plain sum. The kernel
  adds the bias to the sum of the two products, the reference adds it to the second product first; addition of
  extended reals is associative at every value, so the two results are equal with no use of the inputs' finiteness.
  The reference's 64 padding rows are rows 8192 … 8255 of its kernel's result, which the final cut drops.

  The three frames are the generated frame certificates; the ideal pass rewrote nothing, so the kernel's idealization is
  the kernel's own text read at the ideal values.
-/
import proofs.«100547_g2000702539081698_pallasbulk_401_4_alg».proof.Defs
import proofs.«100547_g2000702539081698_pallasbulk_401_4_alg».proof.Proof.Gen.Kernel
import proofs.«100547_g2000702539081698_pallasbulk_401_4_alg».proof.Proof.Gen.Kernel.Frame
import proofs.«100547_g2000702539081698_pallasbulk_401_4_alg».proof.Proof.Gen.KernelIdeal
import proofs.«100547_g2000702539081698_pallasbulk_401_4_alg».proof.Proof.Gen.KernelIdeal.Frame
import proofs.«100547_g2000702539081698_pallasbulk_401_4_alg».proof.Proof.Gen.ReferenceIdeal
import proofs.«100547_g2000702539081698_pallasbulk_401_4_alg».proof.Proof.Gen.ReferenceIdeal.Frame
import proofs.«100547_g2000702539081698_pallasbulk_401_4_alg».proof.Proof.Gen.Pre_finite_inputs
import proofs.«100547_g2000702539081698_pallasbulk_401_4_alg».proof.Proof.KernelValue
import proofs.«100547_g2000702539081698_pallasbulk_401_4_alg».proof.Proof.RefValue
import Idealize.ShloMosaic.Adequacy
import Idealize.ShloMosaic.Init

noncomputable section

namespace Cert.Proof

open Idealize.ShloMosaic Idealize.SL.Sem

/-- Each program runs to the end without a fault and leaves its argument arrays as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- From memories that agree on the six arguments, both programs end with the result array at the residual block's
    output on every row of the input: the kernel's run and the reference's run name the same function of the arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
